-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S128x256 : Shape := ⟨2, ![128, 256]⟩
abbrev S50000x256 : Shape := ⟨2, ![50000, 256]⟩
abbrev S2000x128 : Shape := ⟨2, ![2000, 128]⟩
abbrev S2000x256 : Shape := ⟨2, ![2000, 256]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 50
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S128x128, .f32⟩
  | .hbm, ⟨11, _⟩ => ⟨S128x128, .f32⟩
  | .hbm, ⟨12, _⟩ => ⟨S128x256, .f32⟩
  | .hbm, ⟨13, _⟩ => ⟨S128x256, .bf16⟩
  | .hbm, ⟨14, _⟩ => ⟨S50000x256, .bf16⟩
  | .hbm, ⟨15, _⟩ => ⟨S50000x128, .bf16⟩
  | .hbm, ⟨16, _⟩ => ⟨S50000x128, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S1x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S2000x256, .bf16⟩
  | .local _ .vmem, ⟨4, _⟩ => ⟨S2000x256, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_cst : Ref sig .tc := ⟨.hbm, 41, rfl⟩
abbrev main_call0_v0 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S256x128_S128x128_0_0 : S256x128.Slices ![0, 0] S128x128
  slices_S256x128_S128x128_128_0 : S256x128.Slices ![128, 0] S128x128
  concatenates_S128x128_S128x128_S128x256_d1 : Shape.Concatenates [S128x128, S128x128] S128x256 1
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  slices_S50000x256_S50000x128_0_0 : S50000x256.Slices ![0, 0] S50000x128
  slices_S50000x256_S50000x128_0_128 : S50000x256.Slices ![0, 128] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x256_S2000x256_1_0_0_1_n_n_wf : DotDims.WF S2000x128 S128x256 S2000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .bf16 = 32 ∨ (Rect.block (s := S50000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S800000x256, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_cst : Ref sig .tc := ⟨.hbm, 48, rfl⟩
abbrev main_call1_v0 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Region0.lean ====
import proofs.«416079_j22917945491536_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-! ## The product of a block of rows with the joined weights, entry by entry -/

theorem lhs_proj_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_proj_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_proj_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_proj_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The block product into a zero accumulator at entry `(p, q)`: row `p` of the left block against column `q`
    of the right one, over the 128 contracted positions. -/
theorem proj_matmul_apply (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-- The body's one stored value at entry `(p, q)`: the changes of float format are the identity on the extended
    reals, so it is the block product. -/
theorem pay_apply (x0 : Vec Ideal S2000x128 .f32) (x1 : Vec Ideal S128x256 .bf16) (p : Fin 2000) (q : Fin 256) :
    k0_pay1 (F := Ideal) x0 x1 (ix2 p q) = ∑ k : Fin 128, x0 (ix2 p k) * x1 (ix2 k q) := by
  unfold k0_pay1
  simp only [truncf_apply, shapeCast_self]
  exact proj_matmul_apply _ _ p q

/-! ## The projected array as one function of the node features and the joined weights -/

/-- Every row of the node features against every column of the joined weights. -/
def Gproj (x : Vec Ideal S50000x128 .f32) (w : Vec Ideal S128x256 .bf16) : Vec Ideal S50000x256 .bf16 :=
  fun i => ∑ k : Fin 128, x (ix2 (i 0) k) * w (ix2 k (i 1))

/-- A block of 2000 rows of the features starting at row `2000 r`, against the whole joined weights, is the same rows
    of the projected array. -/
theorem proj_block (X : Vec Ideal S50000x128 .f32) (Wc : Vec Ideal S128x256 .bf16) (x0 : Vec Ideal S2000x128 .f32) (r : ℕ)
    (h0 : ∀ (y : S2000x128.Idx) (z : S50000x128.Idx), (z 0).val = r * 2000 + (y 0).val → (z 1).val = (y 1).val → x0 y = X z)
    (j : S2000x256.Idx) (i : S50000x256.Idx) (hi0 : (i 0).val = r * 2000 + (j 0).val) (hi1 : (i 1).val = (j 1).val) :
    k0_pay1 (F := Ideal) x0 Wc j = Gproj X Wc i := by
  obtain ⟨p, q, rfl⟩ : ∃ (p : Fin 2000) (q : Fin 256), j = ix2 p q := ⟨j 0, j 1, eq_ix2 j⟩
  rw [pay_apply]
  unfold Gproj
  refine Finset.sum_congr rfl fun k _ => ?_
  rw [h0 (ix2 p k) (ix2 (i 0) k) hi0 rfl]
  refine congrArg _ (congrArg _ ?_)
  funext a
  match a with
  | ⟨0, _⟩ => rfl
  | ⟨1, _⟩ => exact Fin.ext hi1.symm

section Region
variable (V : (c : Dev nD) → (b : Ref sig .tc) → Buf (Elt Ideal) ((c : Thread nD τ).loc b))

/-- The printed index maps over the grid: the feature and result windows move one block of rows per point, the
    weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `2000 t … 2000 t + 1999` of the features. -/
theorem xblk_apply (c : Dev nD) (t : Fin cfg0.N) (y : S2000x128.Idx) (z : S50000x128.Idx)
    (h0 : (z 0).val = t.val * 2000 + (y 0).val) (h1 : (z 1).val = (y 1).val) :
    (iblk0 V c 0 t : Vec Ideal S2000x128 .f32) y = (V c main_arg0 : S50000x128.Idx → EReal) z := by
  obtain ⟨e0, e1, -⟩ := idx_facts t
  unfold iblk0
  rw [View.read_apply]
  show V c main_arg0 _ = V c main_arg0 _
  refine congrArg _ ?_
  funext a
  apply Fin.ext
  match a with
  | ⟨0, _⟩ => show win0_0.index t 0 * 2000 + 1 * (y 0).val = (z 0).val; rw [e0, h0]; omega
  | ⟨1, _⟩ => show win0_0.index t 1 * 128 + 1 * (y 1).val = (z 1).val; rw [e1, h1]; omega

/-- The weight window's block at every point is the whole joined weight array. -/
theorem wblk_eq (c : Dev nD) (t : Fin cfg0.N) :
    (iblk0 V c 1 t : Vec Ideal S128x256 .bf16) = (V c main_v7 : S128x256.Idx → EReal) := by
  obtain ⟨-, -, e2, e3, -⟩ := idx_facts t
  funext y
  unfold iblk0
  rw [View.read_apply]
  show V c main_v7 _ = V c main_v7 _
  refine congrArg _ ?_
  funext a
  apply Fin.ext
  match a with
  | ⟨0, _⟩ => show win0_1.index t 0 * 128 + 1 * (y 0).val = (y 0).val; rw [e2]; omega
  | ⟨1, _⟩ => show win0_1.index t 1 * 256 + 1 * (y 1).val = (y 1).val; rw [e3]; omega

/-- What point `t` writes back is block `t` of the projected array. -/
theorem flushed_eq (c : Dev nD) (t : Fin cfg0.N) :
    (dat0 V c).flushed 2 t = ((cfg0.win 2).blk t).view.read (Elt Ideal) (Gproj (V c main_arg0) (V c main_v7)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  rw [wblk_eq]
  funext j
  show k0_pay1 (F := Ideal) (iblk0 V c 0 t) (V c main_v7) j = Gproj (V c main_arg0) (V c main_v7) (((cfg0.win 2).blk t).view.emb j)
  refine proj_block (V c main_arg0) (V c main_v7) (iblk0 V c 0 t) t.val (fun y z h0 h1 => xblk_apply V c t y z h0 h1) j (((cfg0.win 2).blk t).view.emb j) ?_ ?_
  · show win0_2.index t 0 * 2000 + 1 * (j 0).val = t.val * 2000 + (j 0).val
    rw [e4]; omega
  · show win0_2.index t 1 * 256 + 1 * (j 1).val = (j 1).val
    rw [e5]; omega

/-- An index of the projected array is in point `t`'s block iff each coordinate is in the block's range. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v8).slice (win0_2.rect t)).set ↔ _
  rw [View.set_slice_whole, Rect.mem_set_unit]
  exact Iff.rfl

/-- The 25 blocks of 2000 rows cover the 50000 rows: row `n` is in block `n / 2000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e4, e5⟩ := idx_facts t
  refine ⟨t, flush0_2 t, ?_⟩
  rw [mem_blk]
  intro a
  match a with
  | ⟨0, _⟩ =>
    show win0_2.index t 0 * 2000 ≤ (i 0).val ∧ (i 0).val < win0_2.index t 0 * 2000 + 2000
    rw [e4]; show (i 0).val / 2000 * 2000 ≤ (i 0).val ∧ (i 0).val < (i 0).val / 2000 * 2000 + 2000; omega
  | ⟨1, _⟩ =>
    show win0_2.index t 1 * 256 ≤ (i 1).val ∧ (i 1).val < win0_2.index t 1 * 256 + 256
    rw [e5]; omega

/-- So the result array of the first call ends holding the projected array of what the call found in its two
    operands. -/
theorem final (c : Dev nD) : (dat0 V c).arrAt 2 cfg0.N = Gproj (V c main_arg0) (V c main_v7) :=
  (dat0 V c).arrAt_eq_of_cover 2 (Gproj (V c main_arg0) (V c main_v7)) (fun t _ => flushed_eq V c t) cover

end Region

end Cert.KernelIdeal.Proj

end
-- ==== Proof.Region1.lean ====
import proofs.«416079_j22917945491536_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Upd

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-! ## The update's block product, entry by entry -/

theorem lhs_upd_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_upd_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_upd_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_upd_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator at entry `(p, q)`: row `p` of the left block against column `q`
    of the update weights, over the 128 contracted positions. -/
theorem upd_matmul_apply (a : FVec Ideal S2000x128 .f32) (b : FVec Ideal S128x128 .f32) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_upd_0 _ _
    | ⟨1, _⟩ => exact (lhs_upd_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_upd_0 _ _).trans hk
    | ⟨1, _⟩ => exact rhs_upd_1 _ _)
  rw [el, er]

/-- The degree scale the update multiplies the aggregated messages by, and the floor of its rectifier, as the body
    spells them. -/
abbrev scaleWord : EReal := Scalar.ofBits (F := Ideal) .f32 0x3E800000#32
abbrev floorWord : EReal := Scalar.ofBits (F := Ideal) .f32 0x00000000#32

/-- The one-row bias block broadcast down the 2000 rows, at entry `(p, q)`, is the bias's entry `q`. -/
theorem bias_apply (v : Vec Ideal S1x128 .f32) (p : Fin 2000) (q : Fin 128) :
    broadcastTo S2000x128 v broadcasts_S1x128_S2000x128 (ix2 p q) = v (ix2 0 q) := by
  refine broadcastTo_apply v _ (ix2 p q) (ix2 0 q) fun a => ?_
  match a with
  | ⟨0, _⟩ => rfl
  | ⟨1, _⟩ => rfl

/-- The body's one stored value at entry `(p, q)`: the features plus the rectified affine image of the features
    and the scaled aggregated messages. -/
theorem pay_apply (v0 v1 : Vec Ideal S2000x128 .f32) (v6 : Vec Ideal S128x128 .f32) (v8 : Vec Ideal S1x128 .f32) (p : Fin 2000) (q : Fin 128) :
    k1_pay1 (F := Ideal) v0 v1 v6 v8 (ix2 p q)
      = v0 (ix2 p q) + max ((∑ k : Fin 128, (v0 (ix2 p k) + v1 (ix2 p k) * scaleWord) * v6 (ix2 k q)) + v8 (ix2 0 q)) floorWord := by
  unfold k1_pay1
  simp only [addf_apply, maximumf_apply, broadcast_apply, shapeCast_self]
  rw [upd_matmul_apply, bias_apply]
  rfl

/-! ## The updated array as one function of the features, the aggregated messages, the weights and the bias -/

/-- Row by row: the features plus the rectified affine image of the features and the scaled aggregated messages. -/
def Gupd (x mi : Vec Ideal S50000x128 .f32) (w : Vec Ideal S128x128 .f32) (b : Vec Ideal S1x128 .f32) : Vec Ideal S50000x128 .f32 :=
  fun i => x i + max ((∑ k : Fin 128, (x (ix2 (i 0) k) + mi (ix2 (i 0) k) * scaleWord) * w (ix2 k (i 1))) + b (ix2 0 (i 1))) floorWord

theorem Gupd_apply (x mi : Vec Ideal S50000x128 .f32) (w : Vec Ideal S128x128 .f32) (b : Vec Ideal S1x128 .f32) (n : Fin 50000) (q : Fin 128) :
    Gupd x mi w b (ix2 n q) = x (ix2 n q) + max ((∑ k : Fin 128, (x (ix2 n k) + mi (ix2 n k) * scaleWord) * w (ix2 k q)) + b (ix2 0 q)) floorWord := rfl

/-- Blocks of 2000 rows of the features and of the aggregated messages starting at row `2000 r`, with the whole
    weights and bias, give the same rows of the updated array. -/
theorem upd_block (X MI : Vec Ideal S50000x128 .f32) (Wu : Vec Ideal S128x128 .f32) (B : Vec Ideal S1x128 .f32)
    (x0 x1 : Vec Ideal S2000x128 .f32) (r : ℕ)
    (h0 : ∀ (y : S2000x128.Idx) (z : S50000x128.Idx), (z 0).val = r * 2000 + (y 0).val → (z 1).val = (y 1).val → x0 y = X z)
    (h1 : ∀ (y : S2000x128.Idx) (z : S50000x128.Idx), (z 0).val = r * 2000 + (y 0).val → (z 1).val = (y 1).val → x1 y = MI z)
    (j : S2000x128.Idx) (i : S50000x128.Idx) (hi0 : (i 0).val = r * 2000 + (j 0).val) (hi1 : (i 1).val = (j 1).val) :
    k1_pay1 (F := Ideal) x0 x1 Wu B j = Gupd X MI Wu B i := by
  obtain ⟨p, q, rfl⟩ : ∃ (p : Fin 2000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q' = q := Fin.ext hi1
  rw [pay_apply, Gupd_apply, h0 (ix2 p q') (ix2 n q') hi0 rfl]
  refine congrArg (fun s => X (ix2 n q') + max (s + B (ix2 0 q')) floorWord) ?_
  refine Finset.sum_congr rfl fun k _ => ?_
  rw [h0 (ix2 p k) (ix2 n k) hi0 rfl, h1 (ix2 p k) (ix2 n k) hi0 rfl]

section Region
variable (V : (c : Dev nD) → (b : Ref sig .tc) → Buf (Elt Ideal) ((c : Thread nD τ).loc b))

/-- The printed index maps over the grid: the feature, message and result windows move one block of rows per point,
    the weight and bias windows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature window's block at point `t` is rows `2000 t … 2000 t + 1999` of the features. -/
theorem xblk_apply (c : Dev nD) (t : Fin cfg1.N) (y : S2000x128.Idx) (z : S50000x128.Idx)
    (h0 : (z 0).val = t.val * 2000 + (y 0).val) (h1 : (z 1).val = (y 1).val) :
    (iblk1 V c 0 t : Vec Ideal S2000x128 .f32) y = (V c main_arg0 : S50000x128.Idx → EReal) z := by
  obtain ⟨e0, e1, -⟩ := idx_facts t
  unfold iblk1
  rw [View.read_apply]
  show V c main_arg0 _ = V c main_arg0 _
  refine congrArg _ ?_
  funext a
  apply Fin.ext
  match a with
  | ⟨0, _⟩ => show win1_0.index t 0 * 2000 + 1 * (y 0).val = (z 0).val; rw [e0, h0]; omega
  | ⟨1, _⟩ => show win1_0.index t 1 * 128 + 1 * (y 1).val = (z 1).val; rw [e1, h1]; omega

/-- The message window's block at point `t` is the same rows of the aggregated messages. -/
theorem miblk_apply (c : Dev nD) (t : Fin cfg1.N) (y : S2000x128.Idx) (z : S50000x128.Idx)
    (h0 : (z 0).val = t.val * 2000 + (y 0).val) (h1 : (z 1).val = (y 1).val) :
    (iblk1 V c 1 t : Vec Ideal S2000x128 .f32) y = (V c main_v34 : S50000x128.Idx → EReal) z := by
  obtain ⟨-, -, e2, e3, -⟩ := idx_facts t
  unfold iblk1
  rw [View.read_apply]
  show V c main_v34 _ = V c main_v34 _
  refine congrArg _ ?_
  funext a
  apply Fin.ext
  match a with
  | ⟨0, _⟩ => show win1_1.index t 0 * 2000 + 1 * (y 0).val = (z 0).val; rw [e2, h0]; omega
  | ⟨1, _⟩ => show win1_1.index t 1 * 128 + 1 * (y 1).val = (z 1).val; rw [e3, h1]; omega

/-- The weight window's block at every point is the whole update weight array. -/
theorem wblk_eq (c : Dev nD) (t : Fin cfg1.N) :
    (iblk1 V c 2 t : Vec Ideal S128x128 .f32) = (V c main_arg4 : S128x128.Idx → EReal) := by
  obtain ⟨-, -, -, -, e4, e5, -⟩ := idx_facts t
  funext y
  unfold iblk1
  rw [View.read_apply]
  show V c main_arg4 _ = V c main_arg4 _
  refine congrArg _ ?_
  funext a
  apply Fin.ext
  match a with
  | ⟨0, _⟩ => show win1_2.index t 0 * 128 + 1 * (y 0).val = (y 0).val; rw [e4]; omega
  | ⟨1, _⟩ => show win1_2.index t 1 * 128 + 1 * (y 1).val = (y 1).val; rw [e5]; omega

/-- The bias window's block at every point is the whole one-row bias array. -/
theorem bblk_eq (c : Dev nD) (t : Fin cfg1.N) :
    (iblk1 V c 3 t : Vec Ideal S1x128 .f32) = (V c main_v35 : S1x128.Idx → EReal) := by
  obtain ⟨-, -, -, -, -, -, e6, e7, -⟩ := idx_facts t
  funext y
  unfold iblk1
  rw [View.read_apply]
  show V c main_v35 _ = V c main_v35 _
  refine congrArg _ ?_
  funext a
  apply Fin.ext
  match a with
  | ⟨0, _⟩ => show win1_3.index t 0 * 1 + 1 * (y 0).val = (y 0).val; rw [e6]; omega
  | ⟨1, _⟩ => show win1_3.index t 1 * 128 + 1 * (y 1).val = (y 1).val; rw [e7]; omega

/-- What point `t` writes back is block `t` of the updated array. -/
theorem flushed_eq (c : Dev nD) (t : Fin cfg1.N) :
    (dat1 V c).flushed 4 t = ((cfg1.win 4).blk t).view.read (Elt Ideal) (Gupd (V c main_arg0) (V c main_v34) (V c main_arg4) (V c main_v35)) := by
  obtain ⟨-, -, -, -, -, -, -, -, e8, e9⟩ := idx_facts t
  show (cfg1.win 4).cut (grid1.coords t) ((dat1 V c).after 4 t) = _
  rw [after1_4]
  unfold out1_4
  rw [View.canon_unit_zero hz]
  simp only [View.ld_unit_zero (S := S2000x128) hz, View.ld_unit_zero (S := S128x128) hz, View.ld_unit_zero (S := S1x128) hz]
  rw [wblk_eq, bblk_eq]
  funext j
  show k1_pay1 (F := Ideal) (iblk1 V c 0 t) (iblk1 V c 1 t) (V c main_arg4) (V c main_v35) j = Gupd (V c main_arg0) (V c main_v34) (V c main_arg4) (V c main_v35) (((cfg1.win 4).blk t).view.emb j)
  refine upd_block (V c main_arg0) (V c main_v34) (V c main_arg4) (V c main_v35) (iblk1 V c 0 t) (iblk1 V c 1 t) t.val
    (fun y z h0 h1 => xblk_apply V c t y z h0 h1) (fun y z h0 h1 => miblk_apply V c t y z h0 h1) j (((cfg1.win 4).blk t).view.emb j) ?_ ?_
  · show win1_4.index t 0 * 2000 + 1 * (j 0).val = t.val * 2000 + (j 0).val
    rw [e8]; omega
  · show win1_4.index t 1 * 128 + 1 * (j 1).val = (j 1).val
    rw [e9]; omega

/-- An index of the updated array is in point `t`'s block iff each coordinate is in the block's range. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v36).slice (win1_4.rect t)).set ↔ _
  rw [View.set_slice_whole, Rect.mem_set_unit]
  exact Iff.rfl

/-- The 25 blocks of 2000 rows cover the 50000 rows: row `n` is in block `n / 2000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, e8, e9⟩ := idx_facts t
  refine ⟨t, flush1_4 t, ?_⟩
  rw [mem_blk]
  intro a
  match a with
  | ⟨0, _⟩ =>
    show win1_4.index t 0 * 2000 ≤ (i 0).val ∧ (i 0).val < win1_4.index t 0 * 2000 + 2000
    rw [e8]; show (i 0).val / 2000 * 2000 ≤ (i 0).val ∧ (i 0).val < (i 0).val / 2000 * 2000 + 2000; omega
  | ⟨1, _⟩ =>
    show win1_4.index t 1 * 128 ≤ (i 1).val ∧ (i 1).val < win1_4.index t 1 * 128 + 128
    rw [e9]; omega

/-- So the result array of the second call ends holding the updated array of what the call found in its four
    operands. -/
theorem final (c : Dev nD) : (dat1 V c).arrAt 4 cfg1.N = Gupd (V c main_arg0) (V c main_v34) (V c main_arg4) (V c main_v35) :=
  (dat1 V c).arrAt_eq_of_cover 4 (Gupd (V c main_arg0) (V c main_v34) (V c main_arg4) (V c main_v35)) (fun t _ => flushed_eq V c t) cover

end Region

end Cert.KernelIdeal.Upd

end
-- ==== Proof.KHost.lean ====
import proofs.«416079_j22917945491536_3_alg».proof.Proof.Region0
import proofs.«416079_j22917945491536_3_alg».proof.Proof.Region1
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-! ## The host lines of the program as functions of the arguments -/

/-- The two halves of the interaction weights side by side: columns 0–127 the rows 0–127, columns 128–255 the rows
    128–255. -/
abbrev wcat (w : FVec Ideal S256x128 .f32) : FVec Ideal S128x256 .bf16 :=
  truncf .bf16 (concatenate S128x256 1 [⟨S128x128, extractStridedSlice S128x128 ![0, 0] w slices_S256x128_S128x128_0_0⟩,
    ⟨S128x128, extractStridedSlice S128x128 ![128, 0] w slices_S256x128_S128x128_128_0⟩] concatenates_S128x128_S128x128_S128x256_d1) bitsLt_bf16_f32

/-- The source and the destination row of the edge list. -/
abbrev srcv (e : IVec S2x800000 32) : IVec S800000 32 :=
  shapeCast _ (extractStridedSlice S1x800000 ![0, 0] e slices_S2x800000_S1x800000_0_0) shapeCasts_S1x800000_S800000
abbrev dstv (e : IVec S2x800000 32) : IVec S800000 32 :=
  shapeCast _ (extractStridedSlice S1x800000 ![1, 0] e slices_S2x800000_S1x800000_1_0) shapeCasts_S1x800000_S800000

/-- A node index vector as jax's indexing normalises it (a negative entry counts from the end), as a column of
    one-component start indices. -/
abbrev startIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The per-edge messages from the projected array: the source node's first-half projection plus the destination
    node's second-half projection plus the bias, rectified. -/
abbrev edgeMsg (p : FVec Ideal S50000x256 .bf16) (s d : IVec S800000 32)
    (b : FVec Ideal S128 .f32) : FVec Ideal S800000x128 .f32 :=
  maximumf
    (addf
      (addf
        (extf .f32 (Host.gather gather_S50000x128_S800000x1_S800000x128_1_0_n_n_0_1_1128
          (extractStridedSlice S50000x128 ![0, 0] p slices_S50000x256_S50000x128_0_0) (startIdx s)) bitsLt_bf16_f32)
        (extf .f32 (Host.gather gather_S50000x128_S800000x1_S800000x128_1_0_n_n_0_1_1128
          (extractStridedSlice S50000x128 ![0, 128] p slices_S50000x256_S50000x128_0_128) (startIdx d)) bitsLt_bf16_f32))
      (broadcastInDim S800000x128 ![0, 1] bcast_S1x128_S800000x128_0_1 (broadcastInDim S1x128 ![1] bcast_S128_S1x128_1 b)))
    (broadcastInDim S800000x128 ![] bcast_S_S800000x128 (constant S_ .f32 0x00000000#32))

/-- The messages summed into their source nodes' rows. -/
abbrev aggregate (s : IVec S800000 32) (u : FVec Ideal S800000x128 .f32) :
    FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 s) u

/-- The whole program's result as a function of the six arguments. -/
def result (x0 : FVec Ideal S50000x128 .f32) (x1 : IVec S2x800000 32)
    (x2 : FVec Ideal S256x128 .f32) (x3 : FVec Ideal S128 .f32)
    (x4 : FVec Ideal S128x128 .f32) (x5 : FVec Ideal S128 .f32) :
    FVec Ideal S50000x128 .f32 :=
  Upd.Gupd x0 (aggregate (srcv x1) (edgeMsg (Proj.Gproj x0 (wcat x2)) (srcv x1) (dstv x1) x3)) x4
    (shapeCast _ x5 shapeCasts_S128_S1x128)

variable (m : (ℓ : Loc nD τ sig) → Buf (Elt Ideal) ℓ) (ρ : Dev nD → PrngReg)

/-! ## The buffers at the first call's entry -/

theorem W1_arg0 (c : Dev nD) : W1 m ρ c (Proc.devRef .tc main_arg0) = m ((c : Thread nD τ).loc main_arg0) := by
  show StableHlo.after hostOps0 (W0 m ρ c) (Proc.devRef .tc main_arg0) = _
  after_results
  try rfl
theorem W1_v7 (c : Dev nD) : W1 m ρ c (Proc.devRef .tc main_v7) = wcat (m ((c : Thread nD τ).loc main_arg2)) := by
  show StableHlo.after hostOps0 (W0 m ρ c) (Proc.devRef .tc main_v7) = _
  after_results
  try rfl
theorem W1_v1 (c : Dev nD) : W1 m ρ c (Proc.devRef .tc main_v1) = srcv (m ((c : Thread nD τ).loc main_arg1)) := by
  show StableHlo.after hostOps0 (W0 m ρ c) (Proc.devRef .tc main_v1) = _
  after_results
  try rfl
theorem W1_v3 (c : Dev nD) : W1 m ρ c (Proc.devRef .tc main_v3) = dstv (m ((c : Thread nD τ).loc main_arg1)) := by
  show StableHlo.after hostOps0 (W0 m ρ c) (Proc.devRef .tc main_v3) = _
  after_results
  try rfl
theorem W1_arg3 (c : Dev nD) : W1 m ρ c (Proc.devRef .tc main_arg3) = m ((c : Thread nD τ).loc main_arg3) := by
  show StableHlo.after hostOps0 (W0 m ρ c) (Proc.devRef .tc main_arg3) = _
  after_results
  try rfl
theorem W1_arg4 (c : Dev nD) : W1 m ρ c (Proc.devRef .tc main_arg4) = m ((c : Thread nD τ).loc main_arg4) := by
  show StableHlo.after hostOps0 (W0 m ρ c) (Proc.devRef .tc main_arg4) = _
  after_results
  try rfl
theorem W1_arg5 (c : Dev nD) : W1 m ρ c (Proc.devRef .tc main_arg5) = m ((c : Thread nD τ).loc main_arg5) := by
  show StableHlo.after hostOps0 (W0 m ρ c) (Proc.devRef .tc main_arg5) = _
  after_results
  try rfl

/-! ## After the first call -/

theorem W2_v8 (c : Dev nD) :
    W2 m ρ c (Proc.devRef .tc main_v8) = Proj.Gproj (m ((c : Thread nD τ).loc main_arg0)) (wcat (m ((c : Thread nD τ).loc main_arg2))) :=
  (W2_arr m ρ c 2).trans ((Proj.final (V1 m ρ) c).trans (congrArg₂ Proj.Gproj (W1_arg0 m ρ c) (W1_v7 m ρ c)))
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_v1 (c : Dev nD) : W2 m ρ c (Proc.devRef .tc main_v1) = srcv (m ((c : Thread nD τ).loc main_arg1)) :=
  (W2_of_ne m ρ c main_v1 (by decide)).trans (W1_v1 m ρ c)
theorem W2_v3 (c : Dev nD) : W2 m ρ c (Proc.devRef .tc main_v3) = dstv (m ((c : Thread nD τ).loc main_arg1)) :=
  (W2_of_ne m ρ c main_v3 (by decide)).trans (W1_v3 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## At the second call's entry: the three host stretches between the calls, read in one pass -/

theorem W5_v34 (c : Dev nD) : W5 m ρ c (Proc.devRef .tc main_v34)
    = aggregate (W2 m ρ c (Proc.devRef .tc main_v1))
        (edgeMsg (W2 m ρ c (Proc.devRef .tc main_v8)) (W2 m ρ c (Proc.devRef .tc main_v1)) (W2 m ρ c (Proc.devRef .tc main_v3)) (W2 m ρ c (Proc.devRef .tc main_arg3))) := by
  show StableHlo.after hostOps1_2 (StableHlo.after hostOps1_1 (StableHlo.after hostOps1 (W2 m ρ c))) (Proc.devRef .tc main_v34) = _
  after_results_simp
  try rfl
theorem W5_v35 (c : Dev nD) : W5 m ρ c (Proc.devRef .tc main_v35)
    = shapeCast _ (W2 m ρ c (Proc.devRef .tc main_arg5)) shapeCasts_S128_S1x128 := by
  show StableHlo.after hostOps1_2 (StableHlo.after hostOps1_1 (StableHlo.after hostOps1 (W2 m ρ c))) (Proc.devRef .tc main_v35) = _
  after_results_simp
  try rfl
theorem W5_arg0 (c : Dev nD) : W5 m ρ c (Proc.devRef .tc main_arg0) = W2 m ρ c (Proc.devRef .tc main_arg0) := by
  show StableHlo.after hostOps1_2 (StableHlo.after hostOps1_1 (StableHlo.after hostOps1 (W2 m ρ c))) (Proc.devRef .tc main_arg0) = _
  after_results_simp
  try rfl
theorem W5_arg4 (c : Dev nD) : W5 m ρ c (Proc.devRef .tc main_arg4) = W2 m ρ c (Proc.devRef .tc main_arg4) := by
  show StableHlo.after hostOps1_2 (StableHlo.after hostOps1_1 (StableHlo.after hostOps1 (W2 m ρ c))) (Proc.devRef .tc main_arg4) = _
  after_results_simp
  try rfl

/-! ## The result buffer after the second call -/

theorem gupd_congr {a a' b b' : FVec Ideal S50000x128 .f32} {w w' : FVec Ideal S128x128 .f32} {v v' : FVec Ideal S1x128 .f32}
    (h1 : a = a') (h2 : b = b') (h3 : w = w') (h4 : v = v') : Upd.Gupd a b w v = Upd.Gupd a' b' w' v' := by
  subst h1 h2 h3 h4; rfl

/-- The result buffer at the last boundary is `result` of the six arguments as launched. -/
theorem W6_result (c : Dev nD) : W6 m ρ c (Proc.devRef .tc main_v36)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_arr m ρ c 4).trans ((Upd.final (V5 m ρ) c).trans ?_)
  unfold result
  refine gupd_congr ((W5_arg0 m ρ c).trans (W2_arg0 m ρ c)) ?_ ((W5_arg4 m ρ c).trans (W2_arg4 m ρ c)) ?_
  · refine (W5_v34 m ρ c).trans ?_
    rw [W2_v1, W2_v3, W2_v8, W2_arg3]
  · refine (W5_v35 m ρ c).trans ?_
    rw [W2_arg5]

end Cert.KernelIdeal.HostValue

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.Bridge.lean ====
import proofs.«416079_j22917945491536_3_alg».proof.Proof.KHost
import proofs.«416079_j22917945491536_3_alg».proof.Proof.Gen.ReferenceIdeal.Read
import proofs.«416079_j22917945491536_3_alg».proof.Proof.LibRowGatherScatter
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.Bridge

open Cert.ReferenceIdeal Cert.ReferenceIdeal.Read
open Idealize.ShloMosaic Idealize.ShloMosaic.ValueIdx Cert.Lib.RowGS
open Cert.KernelIdeal.HostValue (wcat srcv dstv startIdx edgeMsg aggregate result)
open scoped BigOperators

/-! ## The two constants: the update's factor 1/4 against the reference's divisor 4 -/

theorem ofBits_quarter : Ideal.ofBits .f32 0x3E800000#32 = ((1 / 4 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num

/-- On every extended real, dividing by 4 is multiplying by 1/4. -/
theorem div_four (x : EReal) : Ideal.div x (Ideal.ofBits .f32 0x40800000#32) = x * Ideal.ofBits .f32 0x3E800000#32 := by
  rw [ofBits_four, ofBits_quarter, Ideal.div_coe (by norm_num)]

/-! ## Rows taken at a column of start indices -/

/-- The row of a 50000-row matrix that start index `e` names: the word read signed, clamped into the rows. -/
def row (I : IVec S800000x1 32) (e : Fin 800000) : Fin 50000 :=
  ⟨min (I (ix2 e 0)).toInt.toNat (50000 - 1), by omega⟩

theorem gatherK_apply (X : S50000x128.Idx → EReal) (I : IVec S800000x1 32) (e : Fin 800000) (j : Fin 128) :
    Host.gather Cert.KernelIdeal.gather_S50000x128_S800000x1_S800000x128_1_0_n_n_0_1_1128 X I (ix2 e j) = X (ix2 (row I e) j) :=
  gather_rows_apply (by decide) _ rfl rfl rfl rfl rfl rfl rfl X I e j

theorem gatherR_apply (X : S50000x128.Idx → EReal) (I : IVec S800000x1 32) (e : Fin 800000) (j : Fin 128) :
    Host.gather gather_S50000x128_S800000x1_S800000x128_1_0_n_n_0_1_1128 X I (ix2 e j) = X (ix2 (row I e) j) :=
  gather_rows_apply (by decide) _ rfl rfl rfl rfl rfl rfl rfl X I e j

/-! ## The kernel's side: a gathered half of the projected array is a product of the gathered feature row -/

/-- The first 128 columns of a 256-column array. -/
theorem slice_lo (P : Cert.KernelIdeal.S50000x256.Idx → EReal) (n : Fin 50000) (j : Fin 128) :
    extractStridedSlice Cert.KernelIdeal.S50000x128 ![0, 0] P Cert.KernelIdeal.Facts₀.slices_S50000x256_S50000x128_0_0 (ix2 n j) = P (ix2 n (Fin.castAdd 128 j)) :=
  extractStridedSlice_apply ![0, 0] P _ (ix2 n j) (ix2 n (Fin.castAdd 128 j)) (fun a => match a with
    | ⟨0, _⟩ => by show n.val = 0 + n.val; omega
    | ⟨1, _⟩ => by show j.val = 0 + j.val; omega)

/-- The last 128 columns of a 256-column array. -/
theorem slice_hi (P : Cert.KernelIdeal.S50000x256.Idx → EReal) (n : Fin 50000) (j : Fin 128) :
    extractStridedSlice Cert.KernelIdeal.S50000x128 ![0, 128] P Cert.KernelIdeal.Facts₀.slices_S50000x256_S50000x128_0_128 (ix2 n j) = P (ix2 n (Fin.natAdd 128 j)) :=
  extractStridedSlice_apply ![0, 128] P _ (ix2 n j) (ix2 n (Fin.natAdd 128 j)) (fun a => match a with
    | ⟨0, _⟩ => by show n.val = 0 + n.val; omega
    | ⟨1, _⟩ => by show 128 + j.val = 128 + j.val; rfl)

/-- The joined weights, left half: column `j` of rows 0–127 of the interaction weights. -/
theorem wcat_lo (w : S256x128.Idx → EReal) (k j : Fin 128) :
    wcat w (ix2 k (Fin.castAdd 128 j)) = w (ix2 (Fin.castAdd 128 k) j) := by
  show concatenate Cert.KernelIdeal.S128x256 1 [⟨Cert.KernelIdeal.S128x128, extractStridedSlice Cert.KernelIdeal.S128x128 ![0, 0] w Cert.KernelIdeal.Facts₀.slices_S256x128_S128x128_0_0⟩,
    ⟨Cert.KernelIdeal.S128x128, extractStridedSlice Cert.KernelIdeal.S128x128 ![128, 0] w Cert.KernelIdeal.Facts₀.slices_S256x128_S128x128_128_0⟩] Cert.KernelIdeal.Facts₀.concatenates_S128x128_S128x128_S128x256_d1 (ix2 k (Fin.castAdd 128 j)) = _
  rw [concatenate_pair_apply_left (t := Cert.KernelIdeal.S128x256) (s₁ := Cert.KernelIdeal.S128x128) (s₂ := Cert.KernelIdeal.S128x128) (1 : Fin 2) _ _ _ (ix2 k (Fin.castAdd 128 j)) rfl (ix2 k j) (fun b => match b with
    | ⟨0, _⟩ => rfl
    | ⟨1, _⟩ => rfl)]
  exact extractStridedSlice_apply ![0, 0] w _ (ix2 k j) (ix2 (Fin.castAdd 128 k) j) (fun a => match a with
    | ⟨0, _⟩ => by show k.val = 0 + k.val; omega
    | ⟨1, _⟩ => by show j.val = 0 + j.val; omega)

/-- The joined weights, right half: column `j` of rows 128–255 of the interaction weights. -/
theorem wcat_hi (w : S256x128.Idx → EReal) (k j : Fin 128) :
    wcat w (ix2 k (Fin.natAdd 128 j)) = w (ix2 (Fin.natAdd 128 k) j) := by
  show concatenate Cert.KernelIdeal.S128x256 1 [⟨Cert.KernelIdeal.S128x128, extractStridedSlice Cert.KernelIdeal.S128x128 ![0, 0] w Cert.KernelIdeal.Facts₀.slices_S256x128_S128x128_0_0⟩,
    ⟨Cert.KernelIdeal.S128x128, extractStridedSlice Cert.KernelIdeal.S128x128 ![128, 0] w Cert.KernelIdeal.Facts₀.slices_S256x128_S128x128_128_0⟩] Cert.KernelIdeal.Facts₀.concatenates_S128x128_S128x128_S128x256_d1 (ix2 k (Fin.natAdd 128 j)) = _
  rw [concatenate_pair_apply_right (t := Cert.KernelIdeal.S128x256) (s₁ := Cert.KernelIdeal.S128x128) (s₂ := Cert.KernelIdeal.S128x128) (1 : Fin 2) _ _ _ (ix2 k (Fin.natAdd 128 j)) rfl rfl (ix2 k j) (fun b hb => match b with
    | ⟨0, _⟩ => rfl
    | ⟨1, _⟩ => absurd rfl hb) (by show j.val + 128 = 128 + j.val; omega)]
  exact extractStridedSlice_apply ![128, 0] w _ (ix2 k j) (ix2 (Fin.natAdd 128 k) j) (fun a => match a with
    | ⟨0, _⟩ => by show 128 + k.val = 128 + k.val; rfl
    | ⟨1, _⟩ => by show j.val = 0 + j.val; omega)

/-- Gathering rows of the left half of the projected array: the gathered feature row against the first 128 rows of
    the interaction weights. -/
theorem kernel_half_lo (x0 : S50000x128.Idx → EReal) (x2 : S256x128.Idx → EReal) (I : IVec S800000x1 32) (e : Fin 800000) (j : Fin 128) :
    Host.gather Cert.KernelIdeal.gather_S50000x128_S800000x1_S800000x128_1_0_n_n_0_1_1128 (extractStridedSlice Cert.KernelIdeal.S50000x128 ![0, 0] (Cert.KernelIdeal.Proj.Gproj x0 (wcat x2)) Cert.KernelIdeal.Facts₀.slices_S50000x256_S50000x128_0_0) I (ix2 e j)
      = ∑ k : Fin 128, x0 (ix2 (row I e) k) * x2 (ix2 (Fin.castAdd 128 k) j) := by
  rw [gatherK_apply, slice_lo]
  show ∑ k : Fin 128, x0 (ix2 (row I e) k) * wcat x2 (ix2 k (Fin.castAdd 128 j)) = _
  exact Finset.sum_congr rfl fun k _ => by rw [wcat_lo]

/-- Gathering rows of the right half: the gathered feature row against the last 128 rows of the interaction
    weights. -/
theorem kernel_half_hi (x0 : S50000x128.Idx → EReal) (x2 : S256x128.Idx → EReal) (I : IVec S800000x1 32) (e : Fin 800000) (j : Fin 128) :
    Host.gather Cert.KernelIdeal.gather_S50000x128_S800000x1_S800000x128_1_0_n_n_0_1_1128 (extractStridedSlice Cert.KernelIdeal.S50000x128 ![0, 128] (Cert.KernelIdeal.Proj.Gproj x0 (wcat x2)) Cert.KernelIdeal.Facts₀.slices_S50000x256_S50000x128_0_128) I (ix2 e j)
      = ∑ k : Fin 128, x0 (ix2 (row I e) k) * x2 (ix2 (Fin.natAdd 128 k) j) := by
  rw [gatherK_apply, slice_hi]
  show ∑ k : Fin 128, x0 (ix2 (row I e) k) * wcat x2 (ix2 k (Fin.natAdd 128 j)) = _
  exact Finset.sum_congr rfl fun k _ => by rw [wcat_hi]

/-! ## The reference's side: the joined gathered rows, half by half -/

theorem ridx_v19 (e : Fin 800000) (j : Fin 128) (k : Fin 256) : ridx_main_v19 (ix2 e j) k = ix2 k j :=
  funext fun a => match a with
    | ⟨0, _⟩ => rfl
    | ⟨1, _⟩ => rfl

/-- Columns 0–127 of the joined edge features are the source node's features. -/
theorem ref_lo (x0 : S50000x128.Idx → EReal) (x1 : IVec S2x800000 32) (e : Fin 800000) (j k : Fin 128) :
    val_main_v18 (F := Ideal) x0 x1 (lidx_main_v19 (ix2 e j) (Fin.castAdd 128 k)) = x0 (ix2 (row (val_main_v9 (F := Ideal) x1) e) k) := by
  unfold val_main_v18
  rw [concatenate_pair_apply_left (t := S800000x256) (s₁ := S800000x128) (s₂ := S800000x128) (1 : Fin 2) _ _ _ (lidx_main_v19 (ix2 e j) (Fin.castAdd 128 k)) rfl (ix2 e k) (fun b => match b with
    | ⟨0, _⟩ => rfl
    | ⟨1, _⟩ => rfl)]
  unfold val_main_v10
  exact gatherR_apply x0 _ e k

/-- Columns 128–255 of the joined edge features are the destination node's features. -/
theorem ref_hi (x0 : S50000x128.Idx → EReal) (x1 : IVec S2x800000 32) (e : Fin 800000) (j k : Fin 128) :
    val_main_v18 (F := Ideal) x0 x1 (lidx_main_v19 (ix2 e j) (Fin.natAdd 128 k)) = x0 (ix2 (row (val_main_v16 (F := Ideal) x1) e) k) := by
  unfold val_main_v18
  rw [concatenate_pair_apply_right (t := S800000x256) (s₁ := S800000x128) (s₂ := S800000x128) (1 : Fin 2) _ _ _ (lidx_main_v19 (ix2 e j) (Fin.natAdd 128 k)) rfl rfl (ix2 e k) (fun b hb => match b with
    | ⟨0, _⟩ => rfl
    | ⟨1, _⟩ => absurd rfl hb) (by show k.val + 128 = 128 + k.val; omega)]
  unfold val_main_v17
  exact gatherR_apply x0 _ e k

/-! ## The per-edge messages agree -/

/-- The kernel's normalised start indices are the reference's: the same host lines on the same edge list. -/
theorem startIdx_src (x1 : IVec S2x800000 32) : startIdx (srcv x1) = val_main_v9 (F := Ideal) x1 := rfl
theorem startIdx_dst (x1 : IVec S2x800000 32) : startIdx (dstv x1) = val_main_v16 (F := Ideal) x1 := rfl

/-- The kernel's message at edge `e`, feature `j`, with the bias row and the rectifier's floor named as the reference
    names them (the same host lines). -/
theorem edgeMsg_apply (p : Cert.KernelIdeal.S50000x256.Idx → EReal) (s d : IVec S800000 32) (b : S128.Idx → EReal) (e : Fin 800000) (j : Fin 128) :
    edgeMsg p s d b (ix2 e j)
      = max ((Host.gather Cert.KernelIdeal.gather_S50000x128_S800000x1_S800000x128_1_0_n_n_0_1_1128 (extractStridedSlice Cert.KernelIdeal.S50000x128 ![0, 0] p Cert.KernelIdeal.Facts₀.slices_S50000x256_S50000x128_0_0) (startIdx s) (ix2 e j)
            + Host.gather Cert.KernelIdeal.gather_S50000x128_S800000x1_S800000x128_1_0_n_n_0_1_1128 (extractStridedSlice Cert.KernelIdeal.S50000x128 ![0, 128] p Cert.KernelIdeal.Facts₀.slices_S50000x256_S50000x128_0_128) (startIdx d) (ix2 e j))
          + val_main_v21 (F := Ideal) b (ix2 e j)) (val_main_call0_v0 (F := Ideal) (ix2 e j)) := rfl

/-- THE LINEARITY STEP. The product of the joined feature row `[x[src] | x[dst]]` with the interaction weights is
    the product of `x[src]` with the weights' first 128 rows plus the product of `x[dst]` with the last 128: a sum over
    256 positions split in two. So gathering rows of the node-level projection gives the edge-level product. -/
theorem edgeMsg_eq (x0 : S50000x128.Idx → EReal) (x1 : IVec S2x800000 32) (x2 : S256x128.Idx → EReal) (x3 : S128.Idx → EReal) :
    edgeMsg (Cert.KernelIdeal.Proj.Gproj x0 (wcat x2)) (srcv x1) (dstv x1) x3 = val_main_v23 (F := Ideal) x0 x1 x2 x3 := by
  funext i
  obtain ⟨e, j, rfl⟩ : ∃ (e : Fin 800000) (j : Fin 128), i = ix2 e j := ⟨i 0, i 1, eq_ix2 i⟩
  rw [val_main_v23_apply, val_main_v22_apply, val_main_v19_apply, edgeMsg_apply, kernel_half_lo, kernel_half_hi,
    startIdx_src, startIdx_dst]
  refine congrArg (fun s => max (s + val_main_v21 (F := Ideal) x3 (ix2 e j)) (val_main_call0_v0 (F := Ideal) (ix2 e j))) ?_
  refine Eq.trans ?_ (Fin.sum_univ_add (a := 128) (b := 128)
    (fun k => val_main_v18 (F := Ideal) x0 x1 (lidx_main_v19 (ix2 e j) k) * x2 (ridx_main_v19 (ix2 e j) k))).symm
  refine congrArg₂ (· + ·) (Finset.sum_congr rfl fun k _ => ?_) (Finset.sum_congr rfl fun k _ => ?_)
  · rw [ref_lo, ridx_v19]
  · rw [ref_hi, ridx_v19]

/-! ## The aggregated messages and the update agree -/

/-- The messages summed into their source rows: the same scatter-add of equal messages. -/
theorem aggregate_eq (x0 : S50000x128.Idx → EReal) (x1 : IVec S2x800000 32) (x2 : S256x128.Idx → EReal) (x3 : S128.Idx → EReal) :
    aggregate (srcv x1) (edgeMsg (Cert.KernelIdeal.Proj.Gproj x0 (wcat x2)) (srcv x1) (dstv x1) x3) = val_main_v26 (F := Ideal) x0 x1 x2 x3 := by
  rw [edgeMsg_eq]
  rfl

theorem lidx_v30 (n : Fin 50000) (j k : Fin 128) : lidx_main_v30 (ix2 n j) k = ix2 n k :=
  funext fun a => match a with
    | ⟨0, _⟩ => rfl
    | ⟨1, _⟩ => rfl
theorem ridx_v30 (n : Fin 50000) (j k : Fin 128) : ridx_main_v30 (ix2 n j) k = ix2 k j :=
  funext fun a => match a with
    | ⟨0, _⟩ => rfl
    | ⟨1, _⟩ => rfl

/-- The update bias as the kernel's one-row array and as the reference's broadcast: entry `j` of the bias. -/
theorem bias_row (x5 : S128.Idx → EReal) (n : Fin 50000) (j : Fin 128) :
    shapeCast Cert.KernelIdeal.S1x128 x5 Cert.KernelIdeal.Facts₀.shapeCasts_S128_S1x128 (ix2 (0 : Fin 1) j) = val_main_v32 (F := Ideal) x5 (ix2 n j) := by
  rw [val_main_v32_apply, val_main_v31_apply]
  exact (shapeCast_a_1a_apply x5 _ 0 j).trans (congrArg x5 (funext fun a => match a with | ⟨0, _⟩ => rfl))

/-- THE WHOLE RESULT. The kernel's program and the reference compute one function of the six arguments: beyond the
    linearity step, the kernel's factor 1/4 on the aggregated messages is the reference's division by 4. -/
theorem result_eq (x0 : S50000x128.Idx → EReal) (x1 : IVec S2x800000 32) (x2 : S256x128.Idx → EReal) (x3 : S128.Idx → EReal)
    (x4 : S128x128.Idx → EReal) (x5 : S128.Idx → EReal) :
    result x0 x1 x2 x3 x4 x5 = val_main_v35 (F := Ideal) x0 x1 x2 x3 x4 x5 := by
  funext i
  obtain ⟨n, j, rfl⟩ : ∃ (n : Fin 50000) (j : Fin 128), i = ix2 n j := ⟨i 0, i 1, eq_ix2 i⟩
  unfold result
  rw [Cert.KernelIdeal.Upd.Gupd_apply, aggregate_eq, bias_row x5 n j,
    val_main_v35_apply, val_main_v34_apply, val_main_v33_apply, val_main_v30_apply, val_main_call1_v0_apply, val_main_call1_cst_apply]
  simp only [Ideal.addf_def, Ideal.maximumf_def]
  refine congrArg (fun s => x0 (ix2 n j) + max (s + val_main_v32 (F := Ideal) x5 (ix2 n j)) Cert.KernelIdeal.Upd.floorWord) ?_
  refine Finset.sum_congr rfl fun k _ => ?_
  rw [lidx_v30, ridx_v30, val_main_v29_apply, val_main_v28_apply, val_main_v27_apply, val_main_cst_3_apply]
  simp only [Ideal.addf_def, Ideal.hostDivf_def]
  show (x0 (ix2 n k) + val_main_v26 (F := Ideal) x0 x1 x2 x3 (ix2 n k) * Ideal.ofBits .f32 0x3E800000#32) * x4 (ix2 k j) = _
  rw [← div_four]
  rfl

end Cert.Bridge

end
-- ==== Proof.lean ====
/- A message-passing layer on 50000 nodes and 800000 edges, two ways.

   The reference gathers the features of each edge's two endpoints, joins them into a 256-vector, multiplies by the
   256 × 128 interaction weights, adds a bias and rectifies; sums the messages into their source nodes; divides by 4;
   and returns `x + relu((x + m / 4) · W_u + b_u)`.

   The kernel's program multiplies the NODE features once by the two 128-row halves of the interaction weights laid
   side by side (first call, 25 blocks of 2000 rows), gathers rows of the two halves of that product at the edges'
   endpoints and adds them — by linearity the same number as the edge-level product, a sum over 256 positions split
   in two —, adds the bias, rectifies and sums into the source nodes on the host, and in a second call (25 blocks of
   2000 rows) forms `x + relu((x + m · ¼) · W_u + b_u)`. On the extended reals the changes of float format are the
   identity, sums are exact in any grouping, and `m · ¼ = m / 4` for every extended real `m`; nothing needs the inputs
   to be finite.

   Modules: `KRun` (the program's run with its result buffer read), `Region0` / `Region1` (what each call leaves in
   its result array, as one function of its operands), `KHost` (the host lines between the calls, and the result as a
   function `result` of the six arguments), `Bridge` (`result` is the reference's value, entry by entry). -/
import proofs.«416079_j22917945491536_3_alg».proof.Defs
import proofs.«416079_j22917945491536_3_alg».proof.Proof.Gen.Kernel
import proofs.«416079_j22917945491536_3_alg».proof.Proof.Gen.Kernel.Frame
import proofs.«416079_j22917945491536_3_alg».proof.Proof.Gen.KernelIdeal
import proofs.«416079_j22917945491536_3_alg».proof.Proof.Gen.KernelIdeal.Frame
import proofs.«416079_j22917945491536_3_alg».proof.Proof.Gen.ReferenceIdeal
import proofs.«416079_j22917945491536_3_alg».proof.Proof.Gen.ReferenceIdeal.Run
import proofs.«416079_j22917945491536_3_alg».proof.Proof.Gen.ReferenceIdeal.Read
import proofs.«416079_j22917945491536_3_alg».proof.Proof.Gen.Pre_finite_inputs
import proofs.«416079_j22917945491536_3_alg».proof.Proof.KRun
import proofs.«416079_j22917945491536_3_alg».proof.Proof.KHost
import proofs.«416079_j22917945491536_3_alg».proof.Proof.Bridge
import Idealize.ShloMosaic.Adequacy
import Idealize.ShloMosaic.Init

noncomputable section

namespace Cert.Proof

open Idealize.ShloMosaic Idealize.SL.Sem

/-- The kernel's program at the ideal values: it runs, its result buffer ends at `result` of the arguments, the
    arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v36)
        = Cert.KernelIdeal.HostValue.result (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.HostValue.W6_result m ρ c), (h c).2⟩)
    (Cert.KernelIdeal.RunValue.run_result (F := Ideal) m ρ)

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with their result buffers at one function of the
    arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1,
    (hagree c).2.2.2.2.1, (hagree c).2.2.2.2.2]
  exact (Cert.Bridge.result_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
